-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x12288x64 : Shape := ⟨3, ![8, 12288, 64]⟩
abbrev S147456 : Shape := ⟨1, ![147456]⟩
abbrev S49152x9 : Shape := ⟨2, ![49152, 9]⟩
abbrev S32x576 : Shape := ⟨2, ![32, 576]⟩
abbrev S32 : Shape := ⟨1, ![32]⟩
abbrev S_ : Shape := ⟨0, ![]⟩

class Facts : Prop where
  bcast_S_S8x12288x64 : S_.BroadcastsInDim S8x12288x64 (![] : Fin 0 → Fin S8x12288x64.rank)
  reducesTo_S8x12288x64_S_d0_1_2 : S8x12288x64.ReducesTo [0, 1, 2] S_
  h_S_ : 0 < S_.numel
  bcast_S_S147456 : S_.BroadcastsInDim S147456 (![] : Fin 0 → Fin S147456.rank)
  reducesTo_S147456_S_d0 : S147456.ReducesTo [0] S_
  bcast_S_S32x576 : S_.BroadcastsInDim S32x576 (![] : Fin 0 → Fin S32x576.rank)
  reducesTo_S32x576_S_d0_1 : S32x576.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S8x12288x64 .f32) (main_arg1 : IVec S147456 32) (main_arg2 : IVec S147456 32) (main_arg3 : FVec F S147456 .f32) (main_arg4 : IVec S49152x9 32) (main_arg5 : FVec F S32x576 .f32) (main_arg6 : FVec F S32 .f32) : IVec S_ 1 :=
  let main_v0 : FVec F S8x12288x64 .f32 := Host.absf main_arg0
  let main_cst : FVec F S_ .f32 := constant S_ .f32 0x7F800000#32
  let main_v1 : FVec F S8x12288x64 .f32 := broadcastInDim S8x12288x64 ![] bcast_S_S8x12288x64 main_cst
  let main_v2 : IVec S8x12288x64 1 := cmpf .olt main_v0 main_v1
  let main_c : IVec S_ 1 := constantI S_ 1 1#1
  let main_v3 : IVec S_ 1 := (fun x v => Host.reduce IntOp.andi x v reducesTo_S8x12288x64_S_d0_1_2 h_S_) main_v2 main_c
  let main_v4 : FVec F S147456 .f32 := Host.absf main_arg3
  let main_cst_0 : FVec F S_ .f32 := constant S_ .f32 0x7F800000#32
  let main_v5 : FVec F S147456 .f32 := broadcastInDim S147456 ![] bcast_S_S147456 main_cst_0
  let main_v6 : IVec S147456 1 := cmpf .olt main_v4 main_v5
  let main_c_1 : IVec S_ 1 := constantI S_ 1 1#1
  let main_v7 : IVec S_ 1 := (fun x v => Host.reduce IntOp.andi x v reducesTo_S147456_S_d0 h_S_) main_v6 main_c_1
  let main_v8 : IVec S_ 1 := andi main_v3 main_v7
  let main_v9 : FVec F S32x576 .f32 := Host.absf main_arg5
  let main_cst_2 : FVec F S_ .f32 := constant S_ .f32 0x7F800000#32
  let main_v10 : FVec F S32x576 .f32 := broadcastInDim S32x576 ![] bcast_S_S32x576 main_cst_2
  let main_v11 : IVec S32x576 1 := cmpf .olt main_v9 main_v10
  let main_c_3 : IVec S_ 1 := constantI S_ 1 1#1
  let main_v12 : IVec S_ 1 := (fun x v => Host.reduce IntOp.andi x v reducesTo_S32x576_S_d0_1 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S8x12288x64 : Shape := ⟨3, ![8, 12288, 64]⟩
abbrev S147456 : Shape := ⟨1, ![147456]⟩
abbrev S49152x9 : Shape := ⟨2, ![49152, 9]⟩
abbrev S32x576 : Shape := ⟨2, ![32, 576]⟩
abbrev S32 : Shape := ⟨1, ![32]⟩
abbrev S_ : Shape := ⟨0, ![]⟩
abbrev S147456x1 : Shape := ⟨2, ![147456, 1]⟩
abbrev S8x147456x64 : Shape := ⟨3, ![8, 147456, 64]⟩
abbrev S1x147456x1 : Shape := ⟨3, ![1, 147456, 1]⟩
abbrev S49152x64 : Shape := ⟨2, ![49152, 64]⟩
abbrev S8x49152x64 : Shape := ⟨3, ![8, 49152, 64]⟩
abbrev S442368 : Shape := ⟨1, ![442368]⟩
abbrev S442368x1 : Shape := ⟨2, ![442368, 1]⟩
abbrev S8x442368x64 : Shape := ⟨3, ![8, 442368, 64]⟩
abbrev S8x49152x576 : Shape := ⟨3, ![8, 49152, 576]⟩
abbrev S393216x576 : Shape := ⟨2, ![393216, 576]⟩
abbrev S1x32 : Shape := ⟨2, ![1, 32]⟩
abbrev S393216x32 : Shape := ⟨2, ![393216, 32]⟩
abbrev S2048x576 : Shape := ⟨2, ![2048, 576]⟩
abbrev S2048x32 : Shape := ⟨2, ![2048, 32]⟩
abbrev S576x32 : Shape := ⟨2, ![576, 32]⟩
abbrev S8x49152x32 : Shape := ⟨3, ![8, 49152, 32]⟩

abbrev nBuf : Space → Nat
  | .hbm => 39
  | .vmem => 6
  | .smem => 0
  | _ => 0

abbrev bufTy : (tb : Table) → Fin (tcTables nBuf tb) → BufTy
  | .hbm, ⟨0, _⟩ => ⟨S8x12288x64, .f32⟩
  | .hbm, ⟨1, _⟩ => ⟨S147456, .i32⟩
  | .hbm, ⟨2, _⟩ => ⟨S147456, .i32⟩
  | .hbm, ⟨3, _⟩ => ⟨S147456, .f32⟩
  | .hbm, ⟨4, _⟩ => ⟨S49152x9, .i32⟩
  | .hbm, ⟨5, _⟩ => ⟨S32x576, .f32⟩
  | .hbm, ⟨6, _⟩ => ⟨S32, .f32⟩
  | .hbm, ⟨7, _⟩ => ⟨S_, .i32⟩
  | .hbm, ⟨8, _⟩ => ⟨S147456, .i32⟩
  | .hbm, ⟨9, _⟩ => ⟨S147456, .i1⟩
  | .hbm, ⟨10, _⟩ => ⟨S_, .i32⟩
  | .hbm, ⟨11, _⟩ => ⟨S147456, .i32⟩
  | .hbm, ⟨12, _⟩ => ⟨S147456, .i32⟩
  | .hbm, ⟨13, _⟩ => ⟨S147456, .i32⟩
  | .hbm, ⟨14, _⟩ => ⟨S147456x1, .i32⟩
  | .hbm, ⟨15, _⟩ => ⟨S8x147456x64, .f32⟩
  | .hbm, ⟨16, _⟩ => ⟨S1x147456x1, .f32⟩
  | .hbm, ⟨17, _⟩ => ⟨S8x147456x64, .f32⟩
  | .hbm, ⟨18, _⟩ => ⟨S8x147456x64, .f32⟩
  | .hbm, ⟨19, _⟩ => ⟨S_, .f32⟩
  | .hbm, ⟨20, _⟩ => ⟨S49152x64, .f32⟩
  | .hbm, ⟨21, _⟩ => ⟨S147456x1, .i32⟩
  | .hbm, ⟨22, _⟩ => ⟨S8x49152x64, .f32⟩
  | .hbm, ⟨23, _⟩ => ⟨S8x49152x64, .f32⟩
  | .hbm, ⟨24, _⟩ => ⟨S442368, .i32⟩
  | .hbm, ⟨25, _⟩ => ⟨S_, .i32⟩
  | .hbm, ⟨26, _⟩ => ⟨S442368, .i32⟩
  | .hbm, ⟨27, _⟩ => ⟨S442368, .i1⟩
  | .hbm, ⟨28, _⟩ => ⟨S_, .i32⟩
  | .hbm, ⟨29, _⟩ => ⟨S442368, .i32⟩
  | .hbm, ⟨30, _⟩ => ⟨S442368, .i32⟩
  | .hbm, ⟨31, _⟩ => ⟨S442368, .i32⟩
  | .hbm, ⟨32, _⟩ => ⟨S442368x1, .i32⟩
  | .hbm, ⟨33, _⟩ => ⟨S8x442368x64, .f32⟩
  | .hbm, ⟨34, _⟩ => ⟨S8x49152x576, .f32⟩
  | .hbm, ⟨35, _⟩ => ⟨S393216x576, .f32⟩
  | .hbm, ⟨36, _⟩ => ⟨S1x32, .f32⟩
  | .hbm, ⟨37, _⟩ => ⟨S393216x32, .f32⟩
  | .hbm, ⟨38, _⟩ => ⟨S8x49152x32, .f32⟩
  | .local _ .vmem, ⟨0, _⟩ => ⟨S2048x576, .f32⟩
  | .local _ .vmem, ⟨1, _⟩ => ⟨S2048x576, .f32⟩
  | .local _ .vmem, ⟨2, _⟩ => ⟨S32x576, .f32⟩
  | .local _ .vmem, ⟨3, _⟩ => ⟨S1x32, .f32⟩
  | .local _ .vmem, ⟨4, _⟩ => ⟨S2048x32, .f32⟩
  | .local _ .vmem, ⟨5, _⟩ => ⟨S2048x32, .f32⟩
  | _, _ => ⟨S8x12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S147456 : S_.BroadcastsInDim S147456 (![] : Fin 0 → Fin S147456.rank)
  bcast_S147456_S147456x1_0 : S147456.BroadcastsInDim S147456x1 (![0] : Fin 1 → Fin S147456x1.rank)
  bcast_S147456_S1x147456x1_1 : S147456.BroadcastsInDim S1x147456x1 (![1] : Fin 1 → Fin S1x147456x1.rank)
  bcast_S1x147456x1_S8x147456x64_0_1_2 : S1x147456x1.BroadcastsInDim S8x147456x64 (![0, 1, 2] : Fin 3 → Fin S8x147456x64.rank)
  bcast_S_S49152x64 : S_.BroadcastsInDim S49152x64 (![] : Fin 0 → Fin S49152x64.rank)
  bcast_S49152x64_S8x49152x64_1_2 : S49152x64.BroadcastsInDim S8x49152x64 (![1, 2] : Fin 2 → Fin S8x49152x64.rank)
  shapeCasts_S49152x9_S442368 : S49152x9.ShapeCasts S442368
  bcast_S_S442368 : S_.BroadcastsInDim S442368 (![] : Fin 0 → Fin S442368.rank)
  bcast_S442368_S442368x1_0 : S442368.BroadcastsInDim S442368x1 (![0] : Fin 1 → Fin S442368x1.rank)
  shapeCasts_S8x442368x64_S8x49152x576 : S8x442368x64.ShapeCasts S8x49152x576
  shapeCasts_S8x49152x576_S393216x576 : S8x49152x576.ShapeCasts S393216x576
  shapeCasts_S32_S1x32 : S32.ShapeCasts S1x32
  inb_S2048x576_S2048x576_0_0 : ∀ a, (![0, 0] : Fin 2 → Nat) a + S2048x576.size a ≤ S2048x576.size a
  h_S2048x576 : 0 < S2048x576.numel
  shapeCasts_S2048x576_S2048x576 : S2048x576.ShapeCasts S2048x576
  bitsLt_bf16_f32 : FTy.bits .bf16 < FTy.bits .f32
  inb_S32x576_S32x576_0_0 : ∀ a, (![0, 0] : Fin 2 → Nat) a + S32x576.size a ≤ S32x576.size a
  h_S32x576 : 0 < S32x576.numel
  transposes_S32x576_p1_0_S576x32 : S32x576.Transposes [1, 0] S576x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  shapeCasts_S393216x32_S8x49152x32 : S393216x32.ShapeCasts S8x49152x32
  gather_S8x12288x64_S147456x1_S8x147456x64_02_1_n_n_1_1_8164_wf : GatherDims.WF S8x12288x64 S147456x1 S8x147456x64 [0, 2] [1] [] [1] [] 1 ![8, 1, 64]
  scatter_S8x49152x64_S147456x1_S8x147456x64_02_1_1_1_wf : ScatterDims.WF S8x49152x64 S147456x1 S8x147456x64 [0, 2] [1] [1] 1
  gather_S8x49152x64_S442368x1_S8x442368x64_02_1_n_n_1_1_8164_wf : GatherDims.WF S8x49152x64 S442368x1 S8x442368x64 [0, 2] [1] [] [1] [] 1 ![8, 1, 64]
  dot_S2048x576_S576x32_S2048x32_1_0_0_1_n_n_wf : DotDims.WF S2048x576 S576x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x576.size a ≤ S393216x576.size a
  hwx0_0 : ∀ i : grid0.Coords, EltTy.bits .f32 = 32 ∨ (Rect.block (s := S393216x576) S2048x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x576.size a ≤ S32x576.size a
  hwx0_1 : ∀ i : grid0.Coords, EltTy.bits .f32 = 32 ∨ (Rect.block (s := S32x576) S32x576.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S393216x32.size a
  hwx0_3 : ∀ i : grid0.Coords, EltTy.bits .f32 = 32 ∨ (Rect.block (s := S393216x32) S2048x32.size (cc0_transform_3 i) (hinb0_3 i)).WholeWords (EltTy.packing .f32)

variable [Facts₀]

def gather_S8x12288x64_S147456x1_S8x147456x64_02_1_n_n_1_1_8164 : GatherDims S8x12288x64 S147456x1 S8x147456x64 where
  offsetDims := [0, 2]
  collapsedSliceDims := [1]
  operandBatchingDims := []
  startIndicesBatchingDims := []
  startIndexMap := [1]
  indexVectorDim := 1
  sliceSizes := ![8, 1, 64]
  wf := gather_S8x12288x64_S147456x1_S8x147456x64_02_1_n_n_1_1_8164_wf
def scatter_S8x49152x64_S147456x1_S8x147456x64_02_1_1_1 : ScatterDims S8x49152x64 S147456x1 S8x147456x64 where
  updateWindowDims := [0, 2]
  insertedWindowDims := [1]
  scatterDimsToOperandDims := [1]
  indexVectorDim := 1
  wf := scatter_S8x49152x64_S147456x1_S8x147456x64_02_1_1_1_wf
def gather_S8x49152x64_S442368x1_S8x442368x64_02_1_n_n_1_1_8164 : GatherDims S8x49152x64 S442368x1 S8x442368x64 where
  offsetDims := [0, 2]
  collapsedSliceDims := [1]
  operandBatchingDims := []
  startIndicesBatchingDims := []
  startIndexMap := [1]
  indexVectorDim := 1
  sliceSizes := ![8, 1, 64]
  wf := gather_S8x49152x64_S442368x1_S8x442368x64_02_1_n_n_1_1_8164_wf
def dot_S2048x576_S576x32_S2048x32_1_0_0_1_n_n : DotDims S2048x576 S576x32 S2048x32 where
  lhsContracting := [1]
  rhsContracting := [0]
  lhsNonContracting := [0]
  rhsNonContracting := [1]
  lhsBatch := []
  rhsBatch := []
  wf := dot_S2048x576_S576x32_S2048x32_1_0_0_1_n_n_wf

abbrev win0_0 : Pipeline.Window sig grid0 :=
  Pipeline.Window.ofSpec (Memref.whole main_v23) S2048x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2048x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x12288x64 : Shape := ⟨3, ![8, 12288, 64]⟩
abbrev S147456 : Shape := ⟨1, ![147456]⟩
abbrev S49152x9 : Shape := ⟨2, ![49152, 9]⟩
abbrev S32x576 : Shape := ⟨2, ![32, 576]⟩
abbrev S32 : Shape := ⟨1, ![32]⟩
abbrev S_ : Shape := ⟨0, ![]⟩
abbrev S147456x1 : Shape := ⟨2, ![147456, 1]⟩
abbrev S8x147456x64 : Shape := ⟨3, ![8, 147456, 64]⟩
abbrev S1x147456x1 : Shape := ⟨3, ![1, 147456, 1]⟩
abbrev S49152x64 : Shape := ⟨2, ![49152, 64]⟩
abbrev S8x49152x64 : Shape := ⟨3, ![8, 49152, 64]⟩
abbrev S442368 : Shape := ⟨1, ![442368]⟩
abbrev S442368x1 : Shape := ⟨2, ![442368, 1]⟩
abbrev S8x442368x64 : Shape := ⟨3, ![8, 442368, 64]⟩
abbrev S8x49152x576 : Shape := ⟨3, ![8, 49152, 576]⟩
abbrev S8x49152x32 : Shape := ⟨3, ![8, 49152, 32]⟩
abbrev S1x1x32 : Shape := ⟨3, ![1, 1, 32]⟩

abbrev nBuf : Space → Nat
  | .hbm => 42
  | .vmem => 0
  | .smem => 0
  | _ => 0

abbrev bufTy : (tb : Table) → Fin (tcTables nBuf tb) → BufTy
  | .hbm, ⟨0, _⟩ => ⟨S8x12288x64, .f32⟩
  | .hbm, ⟨1, _⟩ => ⟨S147456, .i32⟩
  | .hbm, ⟨2, _⟩ => ⟨S147456, .i32⟩
  | .hbm, ⟨3, _⟩ => ⟨S147456, .f32⟩
  | .hbm, ⟨4, _⟩ => ⟨S49152x9, .i32⟩
  | .hbm, ⟨5, _⟩ => ⟨S32x576, .f32⟩
  | .hbm, ⟨6, _⟩ => ⟨S32, .f32⟩
  | .hbm, ⟨7, _⟩ => ⟨S_, .i32⟩
  | .hbm, ⟨8, _⟩ => ⟨S147456, .i32⟩
  | .hbm, ⟨9, _⟩ => ⟨S147456, .i1⟩
  | .hbm, ⟨10, _⟩ => ⟨S_, .i32⟩
  | .hbm, ⟨11, _⟩ => ⟨S147456, .i32⟩
  | .hbm, ⟨12, _⟩ => ⟨S147456, .i32⟩
  | .hbm, ⟨13, _⟩ => ⟨S147456, .i32⟩
  | .hbm, ⟨14, _⟩ => ⟨S147456x1, .i32⟩
  | .hbm, ⟨15, _⟩ => ⟨S8x147456x64, .f32⟩
  | .hbm, ⟨16, _⟩ => ⟨S1x147456x1, .f32⟩
  | .hbm, ⟨17, _⟩ => ⟨S8x147456x64, .f32⟩
  | .hbm, ⟨18, _⟩ => ⟨S8x147456x64, .f32⟩
  | .hbm, ⟨19, _⟩ => ⟨S_, .f32⟩
  | .hbm, ⟨20, _⟩ => ⟨S49152x64, .f32⟩
  | .hbm, ⟨21, _⟩ => ⟨S147456x1, .i32⟩
  | .hbm, ⟨22, _⟩ => ⟨S8x49152x64, .f32⟩
  | .hbm, ⟨23, _⟩ => ⟨S8x49152x64, .f32⟩
  | .hbm, ⟨24, _⟩ => ⟨S442368, .i32⟩
  | .hbm, ⟨25, _⟩ => ⟨S_, .i32⟩
  | .hbm, ⟨26, _⟩ => ⟨S442368, .i32⟩
  | .hbm, ⟨27, _⟩ => ⟨S442368, .i1⟩
  | .hbm, ⟨28, _⟩ => ⟨S_, .i32⟩
  | .hbm, ⟨29, _⟩ => ⟨S442368, .i32⟩
  | .hbm, ⟨30, _⟩ => ⟨S442368, .i32⟩
  | .hbm, ⟨31, _⟩ => ⟨S442368, .i32⟩
  | .hbm, ⟨32, _⟩ => ⟨S442368x1, .i32⟩
  | .hbm, ⟨33, _⟩ => ⟨S8x442368x64, .f32⟩
  | .hbm, ⟨34, _⟩ => ⟨S8x49152x576, .f32⟩
  | .hbm, ⟨35, _⟩ => ⟨S8x49152x32, .f32⟩
  | .hbm, ⟨36, _⟩ => ⟨S1x1x32, .f32⟩
  | .hbm, ⟨37, _⟩ => ⟨S8x49152x32, .f32⟩
  | .hbm, ⟨38, _⟩ => ⟨S8x49152x32, .f32⟩
  | .hbm, ⟨39, _⟩ => ⟨S_, .f32⟩
  | .hbm, ⟨40, _⟩ => ⟨S8x49152x32, .f32⟩
  | .hbm, ⟨41, _⟩ => ⟨S8x49152x32, .f32⟩
  | _, _ => ⟨S8x12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S147456 : S_.BroadcastsInDim S147456 (![] : Fin 0 → Fin S147456.rank)
  bcast_S147456_S147456x1_0 : S147456.BroadcastsInDim S147456x1 (![0] : Fin 1 → Fin S147456x1.rank)
  bcast_S147456_S1x147456x1_1 : S147456.BroadcastsInDim S1x147456x1 (![1] : Fin 1 → Fin S1x147456x1.rank)
  bcast_S1x147456x1_S8x147456x64_0_1_2 : S1x147456x1.BroadcastsInDim S8x147456x64 (![0, 1, 2] : Fin 3 → Fin S8x147456x64.rank)
  bcast_S_S49152x64 : S_.BroadcastsInDim S49152x64 (![] : Fin 0 → Fin S49152x64.rank)
  bcast_S49152x64_S8x49152x64_1_2 : S49152x64.BroadcastsInDim S8x49152x64 (![1, 2] : Fin 2 → Fin S8x49152x64.rank)
  shapeCasts_S49152x9_S442368 : S49152x9.ShapeCasts S442368
  bcast_S_S442368 : S_.BroadcastsInDim S442368 (![] : Fin 0 → Fin S442368.rank)
  bcast_S442368_S442368x1_0 : S442368.BroadcastsInDim S442368x1 (![0] : Fin 1 → Fin S442368x1.rank)
  shapeCasts_S8x442368x64_S8x49152x576 : S8x442368x64.ShapeCasts S8x49152x576
  bcast_S32_S1x1x32_2 : S32.BroadcastsInDim S1x1x32 (![2] : Fin 1 → Fin S1x1x32.rank)
  bcast_S1x1x32_S8x49152x32_0_1_2 : S1x1x32.BroadcastsInDim S8x49152x32 (![0, 1, 2] : Fin 3 → Fin S8x49152x32.rank)
  bcast_S_S8x49152x32 : S_.BroadcastsInDim S8x49152x32 (![] : Fin 0 → Fin S8x49152x32.rank)
  gather_S8x12288x64_S147456x1_S8x147456x64_02_1_n_n_1_1_8164_wf : GatherDims.WF S8x12288x64 S147456x1 S8x147456x64 [0, 2] [1] [] [1] [] 1 ![8, 1, 64]
  scatter_S8x49152x64_S147456x1_S8x147456x64_02_1_1_1_wf : ScatterDims.WF S8x49152x64 S147456x1 S8x147456x64 [0, 2] [1] [1] 1
  gather_S8x49152x64_S442368x1_S8x442368x64_02_1_n_n_1_1_8164_wf : GatherDims.WF S8x49152x64 S442368x1 S8x442368x64 [0, 2] [1] [] [1] [] 1 ![8, 1, 64]
  dot_S8x49152x576_S32x576_S8x49152x32_2_1_01_0_n_n_wf : DotDims.WF S8x49152x576 S32x576 S8x49152x32 [2] [1] [0, 1] [0] [] []

variable [Facts₀]

def gather_S8x12288x64_S147456x1_S8x147456x64_02_1_n_n_1_1_8164 : GatherDims S8x12288x64 S147456x1 S8x147456x64 where
  offsetDims := [0, 2]
  collapsedSliceDims := [1]
  operandBatchingDims := []
  startIndicesBatchingDims := []
  startIndexMap := [1]
  indexVectorDim := 1
  sliceSizes := ![8, 1, 64]
  wf := gather_S8x12288x64_S147456x1_S8x147456x64_02_1_n_n_1_1_8164_wf
def scatter_S8x49152x64_S147456x1_S8x147456x64_02_1_1_1 : ScatterDims S8x49152x64 S147456x1 S8x147456x64 where
  updateWindowDims := [0, 2]
  insertedWindowDims := [1]
  scatterDimsToOperandDims := [1]
  indexVectorDim := 1
  wf := scatter_S8x49152x64_S147456x1_S8x147456x64_02_1_1_1_wf
def gather_S8x49152x64_S442368x1_S8x442368x64_02_1_n_n_1_1_8164 : GatherDims S8x49152x64 S442368x1 S8x442368x64 where
  offsetDims := [0, 2]
  collapsedSliceDims := [1]
  operandBatchingDims := []
  startIndicesBatchingDims := []
  startIndexMap := [1]
  indexVectorDim := 1
  sliceSizes := ![8, 1, 64]
  wf := gather_S8x49152x64_S442368x1_S8x442368x64_02_1_n_n_1_1_8164_wf
def dot_S8x49152x576_S32x576_S8x49152x32_2_1_01_0_n_n : DotDims S8x49152x576 S32x576 S8x49152x32 where
  lhsContracting := [2]
  rhsContracting := [1]
  lhsNonContracting := [0, 1]
  rhsNonContracting := [0]
  lhsBatch := []
  rhsBatch := []
  wf := dot_S8x49152x576_S32x576_S8x49152x32_2_1_01_0_n_n_wf

class Facts : Prop extends Facts₀ where

variable [Facts]
-- ==== Proof.Spec.lean ====
/-
  The layer this certificate is about, as one function of its three operands.

  After the sparse un-pooling and the spiral gather (host operations both programs share word for word), a row of
  576 gathered features meets a 32 x 576 weight matrix, a bias and a ReLU:

      out[b, n, o] = max (sum over k < 576 of g[b, n, k] * w[o, k]  +  bias[o], 0)

  over the extended reals. The kernel computes it on the rows flattened to one axis of 8 * 49152 = 393216 rows, 2048 at a
  time; the reference as one contraction over the rank-3 array. `rowOf` names the flattening.
-/
import Idealize.ShloMosaic.PureOps.Ideal
import Idealize.ShloMosaic.Lib.ValueIdx

noncomputable section

namespace Cert.Spec

open Idealize.ShloMosaic Idealize.ShloMosaic.ValueIdx

/-- Linear layer, bias and ReLU on the gathered features `g`, index by index. -/
def linRelu (g : (⟨3, ![8, 49152, 576]⟩ : Shape).Idx → EReal) (w : (⟨2, ![32, 576]⟩ : Shape).Idx → EReal)
    (b : (⟨1, ![32]⟩ : Shape).Idx → EReal) : (⟨3, ![8, 49152, 32]⟩ : Shape).Idx → EReal :=
  fun i => max ((∑ k : Fin 576, g (ix3 (i 0) (i 1) k) * w (ix2 (i 2) k)) + b (ix1 (i 2))) 0

/-- The same layer on the rows flattened to one axis: row `r`, channel `o`. -/
def linReluRows (g : (⟨2, ![393216, 576]⟩ : Shape).Idx → EReal) (w : (⟨2, ![32, 576]⟩ : Shape).Idx → EReal)
    (b : (⟨2, ![1, 32]⟩ : Shape).Idx → EReal) : (⟨2, ![393216, 32]⟩ : Shape).Idx → EReal :=
  fun j => max ((∑ k : Fin 576, g (ix2 (j 0) k) * w (ix2 (j 1) k)) + b (ix2 (0 : Fin 1) (j 1))) 0

/-- Batch `b`, vertex `n` is row `b * 49152 + n` of the flattened array. -/
def rowOf (b : Fin 8) (n : Fin 49152) : Fin 393216 := ⟨b.val * 49152 + n.val, by have := b.isLt; have := n.isLt; omega⟩

theorem rowOf_val (b : Fin 8) (n : Fin 49152) : (rowOf b n).val = b.val * 49152 + n.val := rfl

end Cert.Spec

end
-- ==== Proof.RefValue.lean ====
/-
  The reference's result is the layer of `Spec.lean` on the gathered features.

  Read one operation at a time, the reference's last four operations are a contraction of the gathered array's last
  axis against the weight's last axis, the bias broadcast along the channel axis, a sum and a maximum with the zero
  splat: at batch `b`, vertex `n`, channel `o` that is `max (sum_k g[b,n,k] * w[o,k] + bias[o], 0)`.
-/
import proofs.«138185_j68521908241109_1_alg».proof.Proof.Gen.ReferenceIdeal.Read
import proofs.«138185_j68521908241109_1_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The contraction's left index at output `(b, n, o)` and step `k` is `(b, n, k)`. -/
theorem lidx_eq (i : S8x49152x32.Idx) (k : Fin 576) : lidx_main_v23 i k = ix3 (i 0) (i 1) k :=
  funext fun a => match a with | ⟨0, _⟩ => rfl | ⟨1, _⟩ => rfl | ⟨2, _⟩ => rfl

/-- Its right index is `(o, k)`. -/
theorem ridx_eq (i : S8x49152x32.Idx) (k : Fin 576) : ridx_main_v23 i k = ix2 (i 2) k :=
  funext fun a => match a with | ⟨0, _⟩ => rfl | ⟨1, _⟩ => rfl

/-- The bias, broadcast twice, is read at the channel. -/
theorem bidx_eq (i : S8x49152x32.Idx) : idx_main_v24 (idx_main_v25 i) = ix1 (i 2) :=
  funext fun a => match a with | ⟨0, _⟩ => rfl

/-- The reference's result, as a function of its arguments, is the layer on the gathered features `val_main_v22`. -/
theorem result_eq (x0 : (⟨S8x12288x64, .f32⟩ : BufTy).Contents (Elt Ideal)) (x1 x2 : (⟨S147456, .i32⟩ : BufTy).Contents (Elt Ideal))
    (x3 : (⟨S147456, .f32⟩ : BufTy).Contents (Elt Ideal)) (x4 : (⟨S49152x9, .i32⟩ : BufTy).Contents (Elt Ideal))
    (x5 : (⟨S32x576, .f32⟩ : BufTy).Contents (Elt Ideal)) (x6 : (⟨S32, .f32⟩ : BufTy).Contents (Elt Ideal)) :
    val_main_v27 (F := Ideal) x0 x1 x2 x3 x4 x5 x6 = Cert.Spec.linRelu (val_main_v22 (F := Ideal) x0 x1 x2 x3 x4) x5 x6 := by
  funext i
  rw [val_main_v27_apply, val_main_v26_apply, val_main_v23_apply, val_main_v25_apply, val_main_v24_apply,
    val_main_call0_v0_apply, val_main_call0_cst_apply]
  simp only [Cert.Spec.linRelu, lidx_eq, ridx_eq, bidx_eq, Ideal.maximumf_def, Ideal.addf_def, Ideal.ofBits_def,
    Ideal.ofBits_zero_f32]
  rfl

end Cert.ReferenceIdeal.RefValue

end
-- ==== Proof.KernelPayload.lean ====
/-
  What the kernel body stores, read at one element.

  The body loads a 2048 x 576 block of gathered rows, the whole 32 x 576 weight and the 1 x 32 bias, narrows the first
  two to bf16 (the identity on extended reals), transposes the weight, multiplies into a zero accumulator, adds the
  bias along the rows and takes the maximum with zero. At row `p` of the block and channel `o` that is

      max (sum over k < 576 of x[p, k] * w[o, k]  +  bias[0, o], 0):

  the matrix product at an index is the sum over the one contracted axis of the operands' products, the transposed
  weight at `(k, o)` is the weight at `(o, k)`, and the bias row is broadcast to every row.
-/
import proofs.«138185_j68521908241109_1_alg».proof.Proof.Gen.KernelIdeal.Skeleton
import Idealize.ShloMosaic.Lib.Pipeline.Value
import Idealize.ShloMosaic.Lib.ValueIdx
import Idealize.ShloMosaic.PureOps.Ideal.Laws
import proofs.«138185_j68521908241109_1_alg».proof.Proof.Spec

noncomputable section

namespace Cert.KernelIdeal.Payload

open Cert.KernelIdeal Cert.KernelIdeal.Gen Idealize.ShloMosaic Idealize.ShloMosaic.ValueIdx

/-! ## The product's operand indices, axis by axis -/

theorem lhs_axis0 (j : S2048x32.Idx) (q : dot_S2048x576_S576x32_S2048x32_1_0_0_1_n_n.contr.Idx) :
    (dot_S2048x576_S576x32_S2048x32_1_0_0_1_n_n.lhsIdx j q 0).val = (j 0).val := by
  unfold DotDims.lhsIdx
  rw [dif_neg (show ¬(0 : Fin S2048x576.rank) ∈ dot_S2048x576_S576x32_S2048x32_1_0_0_1_n_n.lhsBatch by decide), dif_pos (show (0 : Fin S2048x576.rank) ∈ dot_S2048x576_S576x32_S2048x32_1_0_0_1_n_n.lhsNonContracting by decide)]
  rfl
theorem lhs_axis1 (j : S2048x32.Idx) (q : dot_S2048x576_S576x32_S2048x32_1_0_0_1_n_n.contr.Idx) :
    (dot_S2048x576_S576x32_S2048x32_1_0_0_1_n_n.lhsIdx j q 1).val = (q ⟨0, by decide⟩).val :=
  dot_S2048x576_S576x32_S2048x32_1_0_0_1_n_n.lhsIdx_val_of_single rfl j q
theorem rhs_axis0 (j : S2048x32.Idx) (q : dot_S2048x576_S576x32_S2048x32_1_0_0_1_n_n.contr.Idx) :
    (dot_S2048x576_S576x32_S2048x32_1_0_0_1_n_n.rhsIdx j q 0).val = (q ⟨0, by decide⟩).val :=
  dot_S2048x576_S576x32_S2048x32_1_0_0_1_n_n.rhsIdx_val_of_single rfl j q
theorem rhs_axis1 (j : S2048x32.Idx) (q : dot_S2048x576_S576x32_S2048x32_1_0_0_1_n_n.contr.Idx) :
    (dot_S2048x576_S576x32_S2048x32_1_0_0_1_n_n.rhsIdx j q 1).val = (j 1).val := by
  unfold DotDims.rhsIdx
  rw [dif_neg (show ¬(1 : Fin S576x32.rank) ∈ dot_S2048x576_S576x32_S2048x32_1_0_0_1_n_n.rhsBatch by decide), dif_pos (show (1 : Fin S576x32.rank) ∈ dot_S2048x576_S576x32_S2048x32_1_0_0_1_n_n.rhsNonContracting by decide)]
  rfl

/-- The product into a zero accumulator at `(p, o)`: the sum over `k` of `a[p, k] * b[k, o]`. -/
theorem matmul_at (a : FVec Ideal S2048x576 .bf16) (b : FVec Ideal S576x32 .bf16) (p : Fin 2048) (o : Fin 32) :
    matmul dot_S2048x576_S576x32_S2048x32_1_0_0_1_n_n none a b (constant S2048x32 .f32 0x00000000#32) (ix2 p o)
      = ∑ k : Fin 576, a (ix2 p k) * b (ix2 k o) := by
  simp only [matmul]
  rw [Ideal.matmul_constant_zero_apply, ← Equiv.sum_comp (ValueIdx.contrEquiv1 dot_S2048x576_S576x32_S2048x32_1_0_0_1_n_n 576 rfl rfl).symm]
  refine Finset.sum_congr rfl fun k _ => ?_
  have hk := ValueIdx.contrEquiv1_symm_val dot_S2048x576_S576x32_S2048x32_1_0_0_1_n_n 576 rfl rfl k
  have el : dot_S2048x576_S576x32_S2048x32_1_0_0_1_n_n.lhsIdx (ix2 p o) ((ValueIdx.contrEquiv1 dot_S2048x576_S576x32_S2048x32_1_0_0_1_n_n 576 rfl rfl).symm k) = ix2 p k := funext fun c => Fin.ext (by
    match c with
    | ⟨0, _⟩ => exact lhs_axis0 _ _
    | ⟨1, _⟩ => exact (lhs_axis1 _ _).trans hk)
  have er : dot_S2048x576_S576x32_S2048x32_1_0_0_1_n_n.rhsIdx (ix2 p o) ((ValueIdx.contrEquiv1 dot_S2048x576_S576x32_S2048x32_1_0_0_1_n_n 576 rfl rfl).symm k) = ix2 k o := funext fun c => Fin.ext (by
    match c with
    | ⟨0, _⟩ => exact (rhs_axis0 _ _).trans hk
    | ⟨1, _⟩ => exact rhs_axis1 _ _)
  rw [el, er]

/-- The transposed weight at `(k, o)` is the weight at `(o, k)`. -/
theorem transpose_at {α : Type} (w : S32x576.Idx → α) (k : Fin 576) (o : Fin 32) :
    transpose S576x32 [1, 0] w transposes_S32x576_p1_0_S576x32 (ix2 k o) = w (ix2 o k) :=
  transpose_apply [1, 0] w transposes_S32x576_p1_0_S576x32 (ix2 k o) (ix2 o k)
    (fun b => match b with | ⟨0, _⟩ => rfl | ⟨1, _⟩ => rfl)

/-- The bias row broadcast to 2048 rows, at `(p, o)`, is the bias at `(0, o)`. -/
theorem bias_at {α : Type} (v : S1x32.Idx → α) (p : Fin 2048) (o : Fin 32) :
    broadcastTo S2048x32 v broadcasts_S1x32_S2048x32 (ix2 p o) = v (ix2 (0 : Fin 1) o) :=
  broadcastTo_apply v broadcasts_S1x32_S2048x32 (ix2 p o) (ix2 (0 : Fin 1) o)
    (fun a => match a with | ⟨0, _⟩ => rfl | ⟨1, _⟩ => rfl)

/-- THE PAYLOAD AT AN ELEMENT. -/
theorem pay_at (x0 : Vec Ideal S2048x576 .f32) (x1 : Vec Ideal S32x576 .f32) (x2 : Vec Ideal S1x32 .f32) (p : Fin 2048) (o : Fin 32) :
    k0_pay1 (F := Ideal) x0 x1 x2 (ix2 p o)
      = max ((∑ k : Fin 576, x0 (ix2 p k) * x1 (ix2 o k)) + x2 (ix2 (0 : Fin 1) o)) 0 := by
  unfold k0_pay1
  show max ((matmul (F := Ideal) dot_S2048x576_S576x32_S2048x32_1_0_0_1_n_n none (truncf (F := Ideal) .bf16 (shapeCast S2048x576 x0 shapeCasts_S2048x576_S2048x576) bitsLt_bf16_f32)
        (transpose S576x32 [1, 0] (truncf (F := Ideal) .bf16 x1 bitsLt_bf16_f32) transposes_S32x576_p1_0_S576x32) (constant (F := Ideal) S2048x32 .f32 0x00000000#32)) (ix2 p o)
      + (broadcastTo S2048x32 (shapeCast S1x32 x2 shapeCasts_S1x32_S1x32) broadcasts_S1x32_S2048x32) (ix2 p o))
    (Ideal.ofBits .f32 0x00000000#32) = _
  rw [matmul_at, bias_at, Ideal.ofBits_zero_f32, shapeCast_self, shapeCast_self]
  refine congrArg (fun s => max (s + x2 (ix2 (0 : Fin 1) o)) 0) (Finset.sum_congr rfl fun k _ => ?_)
  rw [transpose_at]
  rfl

/-- A block element against the flattened layer: if row `p` of the loaded block is row `i 0` of the array of rows, and
    the loaded weight and bias are the whole weight and bias read at channel `i 1`, then what the body stores at
    `(p, o)` is the layer at `i`. -/
theorem pay_eq_rows (A0 : (⟨2, ![393216, 576]⟩ : Shape).Idx → EReal) (A1 : (⟨2, ![32, 576]⟩ : Shape).Idx → EReal)
    (A2 : (⟨2, ![1, 32]⟩ : Shape).Idx → EReal)
    (x0 : Vec Ideal S2048x576 .f32) (x1 : Vec Ideal S32x576 .f32) (x2 : Vec Ideal S1x32 .f32) (p : Fin 2048) (o : Fin 32)
    (i : (⟨2, ![393216, 32]⟩ : Shape).Idx)
    (h0 : ∀ k : Fin 576, x0 (ix2 p k) = A0 (ix2 (i 0) k))
    (h1 : ∀ k : Fin 576, x1 (ix2 o k) = A1 (ix2 (i 1) k))
    (h2 : x2 (ix2 (0 : Fin 1) o) = A2 (ix2 (0 : Fin 1) (i 1))) :
    k0_pay1 (F := Ideal) x0 x1 x2 (ix2 p o) = Cert.Spec.linReluRows A0 A1 A2 i := by
  rw [pay_at, h2]
  unfold Cert.Spec.linReluRows
  refine congrArg (fun s => max (s + A2 (ix2 (0 : Fin 1) (i 1))) 0) (Finset.sum_congr rfl fun k _ => ?_)
  rw [h0 k, h1 k]

end Cert.KernelIdeal.Payload

end
-- ==== Proof.KernelValue.lean ====
/-
  What the kernel's result array holds after the run.

  The grid has 192 points; point `t` reads rows `2048 t … 2048 t + 2047` of the array of gathered rows, the whole weight
  and the whole bias, and writes rows `2048 t … 2048 t + 2047` of the output. So the element the body stores at `(p, o)`
  of its block is the layer of `Spec.lean` at row `2048 t + p`, channel `o` (`KernelPayload.lean`), the 192 blocks tile the
  393216 rows, and the output array ends as the layer on the flattened rows, whole.

  Around the kernel: before it the host computes the gathered features (`gathered`: the sparse un-pooling as a
  scatter-add of weighted gathered rows, then the spiral gather, nine neighbours of 64 channels side by side) and
  flattens `[8, 49152, 576]` to `[393216, 576]`; after it the host unflattens the output to `[8, 49152, 32]`. Both
  reshapes keep the row-major position, and row `b * 49152 + n` of the flat array is batch `b`, vertex `n`.
-/
import proofs.«138185_j68521908241109_1_alg».proof.Proof.Gen.KernelIdeal.Frame
import proofs.«138185_j68521908241109_1_alg».proof.Proof.KernelPayload
import proofs.«138185_j68521908241109_1_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- Point `t` reads block row `t` of the gathered rows, block `(0, 0)` of the weight and of the bias, and writes
    block row `t` of the output. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, read at an element -/

/-- Row `x 0` of point `t`'s block of gathered rows is row `2048 t + x 0` of the array. -/
theorem rows_read (c : Dev nD) (t : Fin cfg0.N) (x : S2048x576.Idx) (i : S393216x576.Idx)
    (h0 : (i 0).val = t.val * 2048 + (x 0).val) (h1 : (i 1).val = (x 1).val) :
    (iblk m c 0 t : Vec Ideal S2048x576 .f32) x = (V m c main_v23 : S393216x576.Idx → Elt Ideal .f32) i := by
  obtain ⟨e0, e1, -⟩ := idx_facts t
  unfold iblk
  rw [View.read_apply]
  show V m c main_v23 _ = V m c main_v23 _
  congr 1
  funext a
  apply Fin.ext
  match a with
  | ⟨0, _⟩ => show win0_0.index t 0 * 2048 + 1 * (x 0).val = (i 0).val; rw [e0, h0]; omega
  | ⟨1, _⟩ => show win0_0.index t 1 * 576 + 1 * (x 1).val = (i 1).val; rw [e1, h1]; omega

/-- Every point's weight block is the whole weight. -/
theorem weight_read (c : Dev nD) (t : Fin cfg0.N) (x : S32x576.Idx) :
    (iblk m c 1 t : Vec Ideal S32x576 .f32) x = (V m c main_arg5 : S32x576.Idx → Elt Ideal .f32) x := by
  obtain ⟨-, -, e0, e1, -⟩ := idx_facts t
  unfold iblk
  rw [View.read_apply]
  show V m c main_arg5 _ = V m c main_arg5 _
  congr 1
  funext a
  apply Fin.ext
  match a with
  | ⟨0, _⟩ => show win0_1.index t 0 * 32 + 1 * (x 0).val = (x 0).val; rw [e0]; omega
  | ⟨1, _⟩ => show win0_1.index t 1 * 576 + 1 * (x 1).val = (x 1).val; rw [e1]; omega

/-- Every point's bias block is the whole bias row. -/
theorem bias_read (c : Dev nD) (t : Fin cfg0.N) (x : S1x32.Idx) :
    (iblk m c 2 t : Vec Ideal S1x32 .f32) x = (V m c main_v24 : S1x32.Idx → Elt Ideal .f32) x := by
  obtain ⟨-, -, -, -, e0, e1, -⟩ := idx_facts t
  unfold iblk
  rw [View.read_apply]
  show V m c main_v24 _ = V m c main_v24 _
  congr 1
  funext a
  apply Fin.ext
  match a with
  | ⟨0, _⟩ => show win0_2.index t 0 * 1 + 1 * (x 0).val = (x 0).val; rw [e0]; omega
  | ⟨1, _⟩ => show win0_2.index t 1 * 32 + 1 * (x 1).val = (x 1).val; rw [e1]; omega

/-! ## What a point writes back -/

/-- The output array where covered: the layer on the flattened rows, of the arrays as the kernel finds them. -/
abbrev rowsResult (c : Dev nD) : S393216x32.Idx → Elt Ideal .f32 :=
  Cert.Spec.linReluRows (V m c main_v23) (V m c main_arg5) (V m c main_v24)

/-- An element of point `t`'s output block is the layer at row `2048 t + p`. -/
theorem block_at (c : Dev nD) (t : Fin cfg0.N) (j : S2048x32.Idx) (i : S393216x32.Idx)
    (h0 : (i 0).val = t.val * 2048 + (j 0).val) (h1 : (i 1).val = (j 1).val) :
    k0_pay1 (F := Ideal) (iblk m c 0 t) (iblk m c 1 t) (iblk m c 2 t) j = rowsResult m c i := by
  obtain ⟨p, o, rfl⟩ : ∃ (p : Fin 2048) (o : Fin 32), j = ix2 p o := ⟨j 0, j 1, eq_ix2 j⟩
  refine Cert.KernelIdeal.Payload.pay_eq_rows (V m c main_v23) (V m c main_arg5) (V m c main_v24)
    (iblk m c 0 t) (iblk m c 1 t) (iblk m c 2 t) p o i (fun k => ?_) (fun k => ?_) ?_
  · exact rows_read m c t (ix2 p k) (ix2 (i 0) k) h0 rfl
  · refine (weight_read m c t (ix2 o k)).trans (congrArg _ ?_)
    funext a; apply Fin.ext
    match a with
    | ⟨0, _⟩ => exact h1.symm
    | ⟨1, _⟩ => rfl
  · refine (bias_read m c t (ix2 (0 : Fin 1) o)).trans (congrArg _ ?_)
    funext a; apply Fin.ext
    match a with
    | ⟨0, _⟩ => rfl
    | ⟨1, _⟩ => exact h1.symm

/-- WHAT POINT `t` WRITES BACK is block `t` of the layer on the flattened rows. -/
theorem flushed_eq (c : Dev nD) (t : Fin cfg0.N) :
    (dats m 0 c).flushed 3 t = ((cfg0.win 3).blk t).view.read (Elt Ideal) (rowsResult m c) := by
  obtain ⟨-, -, -, -, -, -, e0, e1⟩ := idx_facts t
  show (cfg0.win 3).cut (grid0.coords t) ((dats m 0 c).after 3 t) = _
  rw [after0_3]
  unfold out0_3
  rw [View.canon_unit_zero hz]
  simp only [View.ld_unit_zero (S := S2048x576) hz, View.ld_unit_zero (S := S32x576) hz, View.ld_unit_zero (S := S1x32) hz]
  funext j
  show k0_pay1 (F := Ideal) (iblk m c 0 t) (iblk m c 1 t) (iblk m c 2 t) j = rowsResult m c (((cfg0.win 3).blk t).view.emb j)
  refine block_at m c t j _ ?_ ?_
  · show win0_3.index t 0 * 2048 + 1 * (j 0).val = t.val * 2048 + (j 0).val; rw [e0]; omega
  · show win0_3.index t 1 * 32 + 1 * (j 1).val = (j 1).val; rw [e1]; omega

/-! ## The blocks tile the output -/

theorem mem_blk (t : Fin cfg0.N) (i : S393216x32.Idx) :
    i ∈ ((cfg0.win 3).blk t).view.set ↔ ∀ a : Fin 2, win0_3.index t a * S2048x32.size a ≤ (i a).val ∧ (i a).val < win0_3.index t a * S2048x32.size a + S2048x32.size a := by
  show i ∈ ((View.whole main_v25).slice (win0_3.rect t)).set ↔ _
  rw [View.set_slice_whole, Rect.mem_set_unit]
  exact Iff.rfl

/-- Row `r` of the output lies in the block of point `r / 2048`. -/
theorem cover (i : S393216x32.Idx) : ∃ t : Fin cfg0.N, (cfg0.win 3).flush t = true ∧ i ∈ ((cfg0.win 3).blk t).view.set := by
  have hi0 : (i 0).val < 393216 := (i 0).isLt
  have hi1 : (i 1).val < 32 := (i 1).isLt
  have hN : cfg0.N = 192 := N_0
  let t : Fin cfg0.N := ⟨(i 0).val / 2048, by rw [hN]; omega⟩
  obtain ⟨-, -, -, -, -, -, e0, e1⟩ := idx_facts t
  have ht : t.val = (i 0).val / 2048 := rfl
  refine ⟨t, flush0_3 t, ?_⟩
  rw [mem_blk]
  intro a
  match a with
  | ⟨0, _⟩ => show win0_3.index t 0 * 2048 ≤ (i 0).val ∧ (i 0).val < win0_3.index t 0 * 2048 + 2048; rw [e0, ht]; omega
  | ⟨1, _⟩ => show win0_3.index t 1 * 32 ≤ (i 1).val ∧ (i 1).val < win0_3.index t 1 * 32 + 32; rw [e1]; omega

/-- THE OUTPUT ARRAY after the run: the layer on the flattened rows, whole. -/
theorem final (c : Dev nD) : (dats m 0 c).arrAt 3 cfg0.N = rowsResult m c :=
  (dats m 0 c).arrAt_eq_of_cover 3 (rowsResult m c) (fun t _ => flushed_eq m c t) cover

/-! ## Before the kernel: the gathered features -/

section Host

variable {F : FTy → Type} [FloatOps F]

/-- A row index below zero counts from the end of an axis of extent `n`: `i < 0 ? i + n : i`, lane by lane. -/
def fromEnd {s : Shape} (bc : S_.BroadcastsInDim s (![] : Fin 0 → Fin s.rank)) (n : BitVec 32) (i : IVec s 32) : IVec s 32 :=
  select (cmpi .slt i (broadcastInDim s ![] bc (constantI S_ 32 0#32))) (addi i (broadcastInDim s ![] bc (constantI S_ 32 n))) i

/-- The sparse un-pooling `S @ x`: entry `e` of the COO list adds `vals[e] * x[:, cols[e], :]` onto row `rows[e]` of a
    zero `[8, 49152, 64]` array. -/
def unpooled (x : (⟨S8x12288x64, .f32⟩ : BufTy).Contents (Elt F)) (rows cols : (⟨S147456, .i32⟩ : BufTy).Contents (Elt F))
    (vals : (⟨S147456, .f32⟩ : BufTy).Contents (Elt F)) : (⟨S8x49152x64, .f32⟩ : BufTy).Contents (Elt F) :=
  Host.scatterAdd scatter_S8x49152x64_S147456x1_S8x147456x64_02_1_1_1
    (broadcastInDim S8x49152x64 ![1, 2] bcast_S49152x64_S8x49152x64_1_2 (broadcastInDim S49152x64 ![] bcast_S_S49152x64 (constant S_ .f32 0x00000000#32)))
    (broadcastInDim S147456x1 ![0] bcast_S147456_S147456x1_0 rows)
    (mulf (Host.gather gather_S8x12288x64_S147456x1_S8x147456x64_02_1_n_n_1_1_8164 x
        (broadcastInDim S147456x1 ![0] bcast_S147456_S147456x1_0 (fromEnd bcast_S_S147456 12288#32 cols)))
      (broadcastInDim S8x147456x64 ![0, 1, 2] bcast_S1x147456x1_S8x147456x64_0_1_2 (broadcastInDim S1x147456x1 ![1] bcast_S147456_S1x147456x1_1 vals)))

/-- The spiral gather: for every vertex its nine neighbours' 64 channels, laid side by side as 576 features. -/
def gathered (x : (⟨S8x12288x64, .f32⟩ : BufTy).Contents (Elt F)) (rows cols : (⟨S147456, .i32⟩ : BufTy).Contents (Elt F))
    (vals : (⟨S147456, .f32⟩ : BufTy).Contents (Elt F)) (spiral : (⟨S49152x9, .i32⟩ : BufTy).Contents (Elt F)) :
    (⟨S8x49152x576, .f32⟩ : BufTy).Contents (Elt F) :=
  shapeCast S8x49152x576 (Host.gather gather_S8x49152x64_S442368x1_S8x442368x64_02_1_n_n_1_1_8164 (unpooled x rows cols vals)
      (broadcastInDim S442368x1 ![0] bcast_S442368_S442368x1_0
        (fromEnd bcast_S_S442368 49152#32 (shapeCast S442368 spiral shapeCasts_S49152x9_S442368))))
    shapeCasts_S8x442368x64_S8x49152x576

end Host

/-! ## The arrays, named at their literal types -/

/-- The gathered features of this run's arguments. -/
abbrev feats (c : Dev nD) : S8x49152x576.Idx → EReal :=
  gathered (F := Ideal) (m ((c : Thread nD τ).loc main_arg0)) (m ((c : Thread nD τ).loc main_arg1)) (m ((c : Thread nD τ).loc main_arg2))
    (m ((c : Thread nD τ).loc main_arg3)) (m ((c : Thread nD τ).loc main_arg4))
/-- The weight and the bias as launched. -/
abbrev weightArg (c : Dev nD) : S32x576.Idx → EReal := m ((c : Thread nD τ).loc main_arg5)
abbrev biasArg (c : Dev nD) : S32.Idx → EReal := m ((c : Thread nD τ).loc main_arg6)
/-- The kernel's three operands as it finds them: the flattened rows, the weight, the bias as one row. -/
abbrev flatRows (c : Dev nD) : S393216x576.Idx → EReal := V m c main_v23
abbrev weightIn (c : Dev nD) : S32x576.Idx → EReal := V m c main_arg5
abbrev biasRow (c : Dev nD) : S1x32.Idx → EReal := V m c main_v24

/-- The kernel's first operand is the gathered features with batch and vertex flattened to one axis of rows. -/
theorem rows_eq (c : Dev nD) : flatRows m c = shapeCast S393216x576 (feats m c) shapeCasts_S8x49152x576_S393216x576 := by
  show StableHlo.after hostOps0 (fun b => m (c, b)) (Proc.devRef .tc main_v23) = _
  after_results
  rfl

/-- Its second operand is the weight as launched. -/
theorem weight_eq (c : Dev nD) : weightIn m c = weightArg m c := V_main_arg5 m c

/-- Its third operand is the bias as one row. -/
theorem biasrow_eq (c : Dev nD) : biasRow m c = shapeCast S1x32 (biasArg m c) shapeCasts_S32_S1x32 := by
  show StableHlo.after hostOps0 (fun b => m (c, b)) (Proc.devRef .tc main_v24) = _
  after_results
  rfl

/-! ## After the kernel: the output unflattened -/

/-- Flattening keeps the row-major position: the flat rows at `(b * 49152 + n, k)` are the features at `(b, n, k)`. -/
theorem rows_at (c : Dev nD) (b : Fin 8) (n : Fin 49152) (k : Fin 576) :
    flatRows m c (ix2 (Cert.Spec.rowOf b n) k) = feats m c (ix3 b n k) := by
  rw [rows_eq]
  refine shapeCast_apply (feats m c) shapeCasts_S8x49152x576_S393216x576 (ix2 (Cert.Spec.rowOf b n) k) (ix3 b n k) ?_
  show (S8x49152x576.rowMajor (ix3 b n k)).val = (S393216x576.rowMajor (ix2 (Cert.Spec.rowOf b n) k)).val
  rw [Shape.rowMajor_val_three, Shape.rowMajor_val_two]
  rfl

/-- The bias row at `(0, o)` is the bias at `o`. -/
theorem biasrow_at (c : Dev nD) (o : Fin 32) : biasRow m c (ix2 (0 : Fin 1) o) = biasArg m c (ix1 o) := by
  rw [biasrow_eq]
  refine shapeCast_apply (biasArg m c) shapeCasts_S32_S1x32 (ix2 (0 : Fin 1) o) (ix1 o) ?_
  show (S32.rowMajor (ix1 o)).val = (S1x32.rowMajor (ix2 (0 : Fin 1) o)).val
  rw [Shape.rowMajor_val_one, Shape.rowMajor_val_two]
  show o.val = 0 * 32 + o.val
  omega

/-- The layer on the flattened rows at row `b * 49152 + n` is the layer on the features at `(b, n)`. -/
theorem rowsResult_at (c : Dev nD) (b : Fin 8) (n : Fin 49152) (o : Fin 32) :
    rowsResult m c (ix2 (Cert.Spec.rowOf b n) o) = Cert.Spec.linRelu (feats m c) (weightArg m c) (biasArg m c) (ix3 b n o) := by
  show max ((∑ k : Fin 576, flatRows m c (ix2 (Cert.Spec.rowOf b n) k) * weightIn m c (ix2 o k))
      + biasRow m c (ix2 (0 : Fin 1) o)) 0
    = max ((∑ k : Fin 576, feats m c (ix3 b n k) * weightArg m c (ix2 o k)) + biasArg m c (ix1 o)) 0
  rw [biasrow_at, weight_eq]
  refine congrArg (fun s => max (s + biasArg m c (ix1 o)) 0) (Finset.sum_congr rfl fun k _ => ?_)
  rw [rows_at]

/-- THE RESULT: after the host unflattens the output array, `(b, n, o)` holds the layer on the gathered features. -/
theorem result_eq (c : Dev nD) :
    Pipeline.afterTail₀ cfgs (dats m) 0 (V0 m) [hostOps1] c main_v26 = Cert.Spec.linRelu (feats m c) (weightArg m c) (biasArg m c) := by
  unfold Pipeline.afterTail₀
  show StableHlo.after hostOps1 _ (Proc.devRef .tc main_v26) = _
  after_results
  rw [show Pipeline.withArrays (cfgs 0).spec c (V0 m c) (fun w => (dats m 0 c).arrAt w (cfgs 0).N) (Proc.devRef .tc main_v25) = rowsResult m c from
    (Pipeline.withArrays_arr spec0 launch0.win.arr_inj c _ _ 3).trans (final m c)]
  funext i
  obtain ⟨b, n, o, rfl⟩ : ∃ (b : Fin 8) (n : Fin 49152) (o : Fin 32), i = ix3 b n o := ⟨i 0, i 1, i 2, eq_ix3 i⟩
  refine (shapeCast_apply (rowsResult m c) shapeCasts_S393216x32_S8x49152x32 (ix3 b n o) (ix2 (Cert.Spec.rowOf b n) o) ?_).trans (rowsResult_at m c b n o)
  show (S393216x32.rowMajor (ix2 (Cert.Spec.rowOf b n) o)).val = (S8x49152x32.rowMajor (ix3 b n o)).val
  rw [Shape.rowMajor_val_three, Shape.rowMajor_val_two]
  rfl

/-! ## The run, read -/

/-- Every weakly fair execution ends with the result array at the layer on the gathered features and the arguments unchanged. -/
theorem run : θ_run defs (onTc (τ := τ) (main (F := Ideal))) ⟨m, fun _ => 0, ρ⟩ fun r => ∀ c : Dev nD,
      r.2.mem ((c : Thread nD τ).loc main_v26) = Cert.Spec.linRelu (feats m c) (weightArg m c) (biasArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
      ⟨((h c).2 main_v26 (Pipeline.mem_restRefs_of main_v26 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).1 1).trans (((dats m 0 c).arrAt_in 1 rfl _).trans ((A_eq m c 1).trans (V_main_arg5 m c))),
       ((h c).2 main_arg6 (Pipeline.mem_restRefs_of main_arg6 (by decide) (by decide))).trans (W_main_arg6 m (dats m) c)⟩)
    (run_main m ρ)

end Cert.KernelIdeal.Result

end
-- ==== Proof.SamePrefix.lean ====
/-
  Kernel and reference compute the gathered features by the same host operations, in the same order, with the same
  constants: the sparse un-pooling as a scatter-add of weighted gathered rows onto a zero array, then the spiral gather of
  nine neighbours per vertex, indices below zero counted from the end of their axis. Operation by operation the two terms
  are one term, so as functions of the five arguments they are equal.
-/
import proofs.«138185_j68521908241109_1_alg».proof.Proof.KernelValue
import proofs.«138185_j68521908241109_1_alg».proof.Proof.Gen.ReferenceIdeal.Read

noncomputable section

namespace Cert.SamePrefix

open Idealize.ShloMosaic

/-- The kernel program's gathered features are the reference's, of the same arguments. -/
theorem gathered_eq (x0 : (⟨Cert.KernelIdeal.S8x12288x64, .f32⟩ : BufTy).Contents (Elt Ideal))
    (x1 x2 : (⟨Cert.KernelIdeal.S147456, .i32⟩ : BufTy).Contents (Elt Ideal))
    (x3 : (⟨Cert.KernelIdeal.S147456, .f32⟩ : BufTy).Contents (Elt Ideal))
    (x4 : (⟨Cert.KernelIdeal.S49152x9, .i32⟩ : BufTy).Contents (Elt Ideal)) :
    Cert.KernelIdeal.Result.gathered (F := Ideal) x0 x1 x2 x3 x4
      = Cert.ReferenceIdeal.Read.val_main_v22 (F := Ideal) x0 x1 x2 x3 x4 := rfl

end Cert.SamePrefix

end
-- ==== Proof.lean ====
/-
  A spiral convolution on a mesh, kernel against reference, over the extended reals.

  Both programs first un-pool `x` through a sparse matrix given as COO triples (a scatter-add of weighted gathered rows)
  and gather, for each of 49152 vertices, the 64 channels of its nine spiral neighbours: 576 features per vertex and
  batch element. These host operations are the same in both programs, operation by operation (`SamePrefix.lean`).

  Then comes a linear layer with bias and ReLU, `out[b, n, o] = max (sum_k g[b, n, k] * w[o, k] + bias[o], 0)`
  (`Spec.lean`). The reference computes it as one contraction, a broadcast sum and a maximum (`RefValue.lean`). The
  kernel flattens batch and vertex to 393216 rows and computes 2048 rows per grid point: a matrix product with the
  transposed weight into a zero accumulator, the operands narrowed to bf16 first — the identity on extended reals —,
  plus the bias row, maximum with zero (`KernelPayload.lean`); its 192 output blocks tile the rows, and the host
  unflattens the result (`KernelValue.lean`). The product into a zero accumulator is the plain sum over the 576 features
  and row `b * 49152 + n` is `(b, n)`, so the two results are one function of the arguments. No law used needs the
  inputs finite.

  The three frames: the kernel's two are its generated frame certificates; the reference has no kernel, and its frame
  is its run with the result dropped. The idealization rewrote nothing, so `preserves` is `True`.
-/
import proofs.«138185_j68521908241109_1_alg».proof.Defs
import proofs.«138185_j68521908241109_1_alg».proof.Proof.Gen.Kernel
import proofs.«138185_j68521908241109_1_alg».proof.Proof.Gen.Kernel.Skeleton
import proofs.«138185_j68521908241109_1_alg».proof.Proof.Gen.Kernel.Launch
import proofs.«138185_j68521908241109_1_alg».proof.Proof.Gen.Kernel.Points
import proofs.«138185_j68521908241109_1_alg».proof.Proof.Gen.Kernel.Frame
import proofs.«138185_j68521908241109_1_alg».proof.Proof.Gen.KernelIdeal
import proofs.«138185_j68521908241109_1_alg».proof.Proof.Gen.KernelIdeal.Skeleton
import proofs.«138185_j68521908241109_1_alg».proof.Proof.Gen.KernelIdeal.Launch
import proofs.«138185_j68521908241109_1_alg».proof.Proof.Gen.KernelIdeal.Points
import proofs.«138185_j68521908241109_1_alg».proof.Proof.Gen.KernelIdeal.Frame
import proofs.«138185_j68521908241109_1_alg».proof.Proof.Gen.ReferenceIdeal
import proofs.«138185_j68521908241109_1_alg».proof.Proof.Gen.ReferenceIdeal.Run
import proofs.«138185_j68521908241109_1_alg».proof.Proof.Gen.ReferenceIdeal.Read
import proofs.«138185_j68521908241109_1_alg».proof.Proof.Gen.Pre_finite_inputs
import proofs.«138185_j68521908241109_1_alg».proof.Proof.Spec
import proofs.«138185_j68521908241109_1_alg».proof.Proof.RefValue
import proofs.«138185_j68521908241109_1_alg».proof.Proof.KernelValue
import proofs.«138185_j68521908241109_1_alg».proof.Proof.SamePrefix
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the layer of `Spec.lean` on the gathered features of the (agreeing)
    arguments: the kernel's by `KernelValue.lean`, the reference's by `RefValue.lean`, the features the same by
    `SamePrefix.lean`. -/
theorem algebraic : Cert.algebraic_KernelIdeal_ReferenceIdeal := by
  intro m ρ m' ρ' _ hagree
  refine ⟨fun c => Cert.Spec.linRelu (Cert.KernelIdeal.Result.feats m c) (Cert.KernelIdeal.Result.weightArg m c)
      (Cert.KernelIdeal.Result.biasArg m c), Cert.KernelIdeal.Result.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6⟩ := hagree c
  rw [(h c).1, Cert.ReferenceIdeal.Read.val_main_v27_eq, Cert.ReferenceIdeal.RefValue.result_eq, a0, a1, a2, a3, a4, a5, a6]
  exact congrArg (fun g => Cert.Spec.linRelu g (Cert.KernelIdeal.Result.weightArg m c) (Cert.KernelIdeal.Result.biasArg m c))
    (Cert.SamePrefix.gathered_eq _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
